-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x73x8x8 : Shape := ⟨4, ![4096, 73, 8, 8]⟩
abbrev S4672x1858 : Shape := ⟨2, ![4672, 1858]⟩
abbrev S_ : Shape := ⟨0, ![]⟩

class Facts : Prop where
  bcast_S_S4096x73x8x8 : S_.BroadcastsInDim S4096x73x8x8 (![] : Fin 0 → Fin S4096x73x8x8.rank)
  reducesTo_S4096x73x8x8_S_d0_1_2_3 : S4096x73x8x8.ReducesTo [0, 1, 2, 3] S_
  h_S_ : 0 < S_.numel
  bcast_S_S4672x1858 : S_.BroadcastsInDim S4672x1858 (![] : Fin 0 → Fin S4672x1858.rank)
  reducesTo_S4672x1858_S_d0_1 : S4672x1858.ReducesTo [0, 1] S_

variable [Facts]

def fn {F : FTy → Type} [FloatOps F] (main_arg0 : FVec F S4096x73x8x8 .f32) (main_arg1 : FVec F S4672x1858 .f32) : IVec S_ 1 :=
  let main_v0 : FVec F S4096x73x8x8 .f32 := Host.absf main_arg0
  let main_cst : FVec F S_ .f32 := constant S_ .f32 0x7F800000#32
  let main_v1 : FVec F S4096x73x8x8 .f32 := broadcastInDim S4096x73x8x8 ![] bcast_S_S4096x73x8x8 main_cst
  let main_v2 : IVec S4096x73x8x8 1 := cmpf .olt main_v0 main_v1
  let main_c : IVec S_ 1 := constantI S_ 1 1#1
  let main_v3 : IVec S_ 1 := (fun x v => Host.reduce IntOp.andi x v reducesTo_S4096x73x8x8_S_d0_1_2_3 h_S_) main_v2 main_c
  let main_v4 : FVec F S4672x1858 .f32 := Host.absf main_arg1
  let main_cst_0 : FVec F S_ .f32 := constant S_ .f32 0x7F800000#32
  let main_v5 : FVec F S4672x1858 .f32 := broadcastInDim S4672x1858 ![] bcast_S_S4672x1858 main_cst_0
  let main_v6 : IVec S4672x1858 1 := cmpf .olt main_v4 main_v5
  let main_c_1 : IVec S_ 1 := constantI S_ 1 1#1
  let main_v7 : IVec S_ 1 := (fun x v => Host.reduce IntOp.andi x v reducesTo_S4672x1858_S_d0_1 h_S_) main_v6 main_c_1
  let main_v8 : IVec S_ 1 := andi main_v3 main_v7
  main_v8
-- ==== Kernel.lean ====
abbrev S4096x73x8x8 : Shape := ⟨4, ![4096, 73, 8, 8]⟩
abbrev S4672x1858 : Shape := ⟨2, ![4672, 1858]⟩
abbrev S4096x4672 : Shape := ⟨2, ![4096, 4672]⟩
abbrev S4096x1858 : Shape := ⟨2, ![4096, 1858]⟩
abbrev S256x4672 : Shape := ⟨2, ![256, 4672]⟩
abbrev S256x1858 : Shape := ⟨2, ![256, 1858]⟩

abbrev nBuf : Space → Nat
  | .hbm => 5
  | .vmem => 5
  | .smem => 0
  | _ => 0

abbrev bufTy : (tb : Table) → Fin (tcTables nBuf tb) → BufTy
  | .hbm, ⟨0, _⟩ => ⟨S4096x73x8x8, .f32⟩
  | .hbm, ⟨1, _⟩ => ⟨S4672x1858, .f32⟩
  | .hbm, ⟨2, _⟩ => ⟨S4096x4672, .f32⟩
  | .hbm, ⟨3, _⟩ => ⟨S4672x1858, .bf16⟩
  | .hbm, ⟨4, _⟩ => ⟨S4096x1858, .f32⟩
  | .local _ .vmem, ⟨0, _⟩ => ⟨S256x4672, .f32⟩
  | .local _ .vmem, ⟨1, _⟩ => ⟨S256x4672, .f32⟩
  | .local _ .vmem, ⟨2, _⟩ => ⟨S4672x1858, .bf16⟩
  | .local _ .vmem, ⟨3, _⟩ => ⟨S256x1858, .f32⟩
  | .local _ .vmem, ⟨4, _⟩ => ⟨S256x1858, .f32⟩
  | _, _ => ⟨S4096x73x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4672x1858 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1858 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x73x8x8_S4096x4672 : S4096x73x8x8.ShapeCasts S4096x4672
  bitsLt_bf16_f32 : FTy.bits .bf16 < FTy.bits .f32
  inb_S256x4672_S256x4672_0_0 : ∀ a, (![0, 0] : Fin 2 → Nat) a + S256x4672.size a ≤ S256x4672.size a
  h_S256x4672 : 0 < S256x4672.numel
  shapeCasts_S256x4672_S256x4672 : S256x4672.ShapeCasts S256x4672
  inb_S4672x1858_S4672x1858_0_0 : ∀ a, (![0, 0] : Fin 2 → Nat) a + S4672x1858.size a ≤ S4672x1858.size a
  h_S4672x1858 : 0 < S4672x1858.numel
  shapeCasts_S4672x1858_S4672x1858 : S4672x1858.ShapeCasts S4672x1858
  inb_S256x1858_S256x1858_0_0 : ∀ a, (![0, 0] : Fin 2 → Nat) a + S256x1858.size a ≤ S256x1858.size a
  h_S256x1858 : 0 < S256x1858.numel
  dot_S256x4672_S4672x1858_S256x1858_1_0_0_1_n_n_wf : DotDims.WF S256x4672 S4672x1858 S256x1858 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4672.size a ≤ S4096x4672.size a
  hwx0_0 : ∀ i : grid0.Coords, EltTy.bits .f32 = 32 ∨ (Rect.block (s := S4096x4672) S256x4672.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4672x1858.size a ≤ S4672x1858.size a
  hwx0_1 : ∀ i : grid0.Coords, EltTy.bits .bf16 = 32 ∨ (Rect.block (s := S4672x1858) S4672x1858.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1858.size a ≤ S4096x1858.size a
  hwx0_2 : ∀ i : grid0.Coords, EltTy.bits .f32 = 32 ∨ (Rect.block (s := S4096x1858) S256x1858.size (cc0_transform_2 i) (hinb0_2 i)).WholeWords (EltTy.packing .f32)

variable [Facts₀]

def dot_S256x4672_S4672x1858_S256x1858_1_0_0_1_n_n : DotDims S256x4672 S4672x1858 S256x1858 where
  lhsContracting := [1]
  rhsContracting := [0]
  lhsNonContracting := [0]
  rhsNonContracting := [1]
  lhsBatch := []
  rhsBatch := []
  wf := dot_S256x4672_S4672x1858_S256x1858_1_0_0_1_n_n_wf

abbrev win0_0 : Pipeline.Window sig grid0 :=
  Pipeline.Window.ofSpec (Memref.whole main_v0) S256x4672.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4672x1858.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1858.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x73x8x8 : Shape := ⟨4, ![4096, 73, 8, 8]⟩
abbrev S4672x1858 : Shape := ⟨2, ![4672, 1858]⟩
abbrev S4096x4672 : Shape := ⟨2, ![4096, 4672]⟩
abbrev S4096x1858 : Shape := ⟨2, ![4096, 1858]⟩

abbrev nBuf : Space → Nat
  | .hbm => 4
  | .vmem => 0
  | .smem => 0
  | _ => 0

abbrev bufTy : (tb : Table) → Fin (tcTables nBuf tb) → BufTy
  | .hbm, ⟨0, _⟩ => ⟨S4096x73x8x8, .f32⟩
  | .hbm, ⟨1, _⟩ => ⟨S4672x1858, .f32⟩
  | .hbm, ⟨2, _⟩ => ⟨S4096x4672, .f32⟩
  | .hbm, ⟨3, _⟩ => ⟨S4096x1858, .f32⟩
  | _, _ => ⟨S4096x73x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x73x8x8_S4096x4672 : S4096x73x8x8.ShapeCasts S4096x4672
  dot_S4096x4672_S4672x1858_S4096x1858_1_0_0_1_n_n_wf : DotDims.WF S4096x4672 S4672x1858 S4096x1858 [1] [0] [0] [1] [] []

variable [Facts₀]

def dot_S4096x4672_S4672x1858_S4096x1858_1_0_0_1_n_n : DotDims S4096x4672 S4672x1858 S4096x1858 where
  lhsContracting := [1]
  rhsContracting := [0]
  lhsNonContracting := [0]
  rhsNonContracting := [1]
  lhsBatch := []
  rhsBatch := []
  wf := dot_S4096x4672_S4672x1858_S4096x1858_1_0_0_1_n_n_wf

class Facts : Prop extends Facts₀ where

variable [Facts]
-- ==== Proof.Selection.lean ====
/-
  The policy head as mathematics. A batch of 4096 positions, each with 73 x 8 x 8 = 4672 features laid out row-major,
  is multiplied by a fixed 4672 x 1858 selection matrix: the logit of position `r` at move `n` is the sum over the
  4672 features `k` of (feature `k` of position `r`) times (entry `(k, n)` of the matrix). On the extended reals
  this is one finite sum per output entry; nothing about it depends on how the rows are tiled or in which order the
  terms are added, because addition on the extended reals is commutative and associative.
-/
import Idealize.ShloMosaic.PureOps.Ideal
import Idealize.ShloMosaic.Lib.ValueIdx

noncomputable section

namespace Cert.PolicyHead

open Idealize.ShloMosaic Idealize.ShloMosaic.ValueIdx

/-- The logits: entry `(r, n)` is the sum over the features `k` of `feat (r, k) * sel (k, n)`. -/
def logits (feat : (⟨2, ![4096, 4672]⟩ : Shape).Idx → EReal) (sel : (⟨2, ![4672, 1858]⟩ : Shape).Idx → EReal) :
    (⟨2, ![4096, 1858]⟩ : Shape).Idx → EReal :=
  fun i => ∑ k : Fin 4672, feat (ix2 (i 0) k) * sel (ix2 k (i 1))

/-- The logits at an entry, spelt out. -/
theorem logits_apply (feat : (⟨2, ![4096, 4672]⟩ : Shape).Idx → EReal) (sel : (⟨2, ![4672, 1858]⟩ : Shape).Idx → EReal)
    (i : (⟨2, ![4096, 1858]⟩ : Shape).Idx) :
    logits feat sel i = ∑ k : Fin 4672, feat (ix2 (i 0) k) * sel (ix2 k (i 1)) := rfl

end Cert.PolicyHead

end
-- ==== Proof.RefLogits.lean ====
/-
  The reference computes the logits. Its matrix product, read at an output entry `(r, n)`, is the sum over the one
  contracted axis `k` of the flattened features at `(r, k)` times the selection matrix at `(k, n)`: the two operand
  indices of the product are exactly the pairs `(r, k)` and `(k, n)`.
-/
import proofs.«409187_j49770081026298_3_alg».proof.Proof.Gen.ReferenceIdeal.Read
import proofs.«409187_j49770081026298_3_alg».proof.Proof.Selection

noncomputable section

namespace Cert.PolicyHead.Ref

open Cert.ReferenceIdeal Cert.ReferenceIdeal.Read Idealize.ShloMosaic Idealize.ShloMosaic.ValueIdx

/-- The left operand's index at output entry `i` and contracted coordinate `k` is `(i 0, k)`. -/
theorem lidx_eq (i : S4096x1858.Idx) (k : Fin 4672) : lidx_main_v1 i k = ix2 (i 0) k :=
  funext fun a => Fin.ext (by match a with | ⟨0, _⟩ => rfl | ⟨1, _⟩ => rfl)

/-- The right operand's index there is `(k, i 1)`. -/
theorem ridx_eq (i : S4096x1858.Idx) (k : Fin 4672) : ridx_main_v1 i k = ix2 k (i 1) :=
  funext fun a => Fin.ext (by match a with | ⟨0, _⟩ => rfl | ⟨1, _⟩ => rfl)

/-- The reference's result is the logits of the flattened features and the selection matrix. -/
theorem result_eq (x : (⟨S4096x73x8x8, .f32⟩ : BufTy).Contents (Elt Ideal)) (w : (⟨S4672x1858, .f32⟩ : BufTy).Contents (Elt Ideal)) :
    val_main_v1 (F := Ideal) x w = logits (val_main_v0 (F := Ideal) x) w := by
  funext i
  rw [val_main_v1_apply, logits_apply]
  refine Finset.sum_congr rfl fun k _ => ?_
  rw [lidx_eq, ridx_eq]
  rfl

end Cert.PolicyHead.Ref

end
-- ==== Proof.TileProduct.lean ====
/-
  One grid point of the kernel, as arithmetic. The body multiplies a tile of 256 feature rows (all 4672 features of
  each) by the whole selection matrix into a zero accumulator. Read on the extended reals, narrowing a float to a
  shorter format is the identity and a shape cast to the same shape moves nothing, so entry `(p, q)` of the tile's
  result is the plain sum over the features `k` of (row `p`, feature `k`) times (matrix entry `(k, q)`).
-/
import proofs.«409187_j49770081026298_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.PolicyHead.Tile

open Cert.KernelIdeal Cert.KernelIdeal.Gen Idealize.ShloMosaic Idealize.ShloMosaic.ValueIdx

/-- The product's left operand is indexed by the output row … -/
theorem lhs_row (i : S256x1858.Idx) (q : dot_S256x4672_S4672x1858_S256x1858_1_0_0_1_n_n.contr.Idx) :
    (dot_S256x4672_S4672x1858_S256x1858_1_0_0_1_n_n.lhsIdx i q 0).val = (i 0).val := by
  unfold DotDims.lhsIdx
  rw [dif_neg (show ¬(0 : Fin S256x4672.rank) ∈ dot_S256x4672_S4672x1858_S256x1858_1_0_0_1_n_n.lhsBatch by decide), dif_pos (show (0 : Fin S256x4672.rank) ∈ dot_S256x4672_S4672x1858_S256x1858_1_0_0_1_n_n.lhsNonContracting by decide)]
  rfl
/-- … and by the contracted coordinate; -/
theorem lhs_feat (i : S256x1858.Idx) (q : dot_S256x4672_S4672x1858_S256x1858_1_0_0_1_n_n.contr.Idx) :
    (dot_S256x4672_S4672x1858_S256x1858_1_0_0_1_n_n.lhsIdx i q 1).val = (q ⟨0, by decide⟩).val :=
  dot_S256x4672_S4672x1858_S256x1858_1_0_0_1_n_n.lhsIdx_val_of_single rfl i q
/-- the right operand by the contracted coordinate … -/
theorem rhs_feat (i : S256x1858.Idx) (q : dot_S256x4672_S4672x1858_S256x1858_1_0_0_1_n_n.contr.Idx) :
    (dot_S256x4672_S4672x1858_S256x1858_1_0_0_1_n_n.rhsIdx i q 0).val = (q ⟨0, by decide⟩).val :=
  dot_S256x4672_S4672x1858_S256x1858_1_0_0_1_n_n.rhsIdx_val_of_single rfl i q
/-- … and by the output column. -/
theorem rhs_col (i : S256x1858.Idx) (q : dot_S256x4672_S4672x1858_S256x1858_1_0_0_1_n_n.contr.Idx) :
    (dot_S256x4672_S4672x1858_S256x1858_1_0_0_1_n_n.rhsIdx i q 1).val = (i 1).val := by
  unfold DotDims.rhsIdx
  rw [dif_neg (show ¬(1 : Fin S4672x1858.rank) ∈ dot_S256x4672_S4672x1858_S256x1858_1_0_0_1_n_n.rhsBatch by decide), dif_pos (show (1 : Fin S4672x1858.rank) ∈ dot_S256x4672_S4672x1858_S256x1858_1_0_0_1_n_n.rhsNonContracting by decide)]
  rfl

/-- Entry `j = (p, q)` of what one grid point stores: the sum over the features of the tile's row `p` against the
    matrix's column `q`. -/
theorem tile_at (rows : Vec Ideal S256x4672 .f32) (mat : Vec Ideal S4672x1858 .bf16) (j : S256x1858.Idx) :
    k0_pay1 (F := Ideal) rows mat j = ∑ k : Fin 4672, rows (ix2 (j 0) k) * mat (ix2 k (j 1)) := by
  show FloatOps.matmul (F := Ideal) (φ₁ := .bf16) (φ₂ := .bf16) dot_S256x4672_S4672x1858_S256x1858_1_0_0_1_n_n none
      (truncf .bf16 (shapeCast (α := EReal) S256x4672 rows shapeCasts_S256x4672_S256x4672 : FVec Ideal S256x4672 .f32) bitsLt_bf16_f32)
      (shapeCast (α := EReal) S4672x1858 mat shapeCasts_S4672x1858_S4672x1858 : FVec Ideal S4672x1858 .bf16) (constant S256x1858 .f32 0x00000000#32) j = _
  rw [Ideal.matmul_constant_zero_apply, ← Equiv.sum_comp (contrEquiv1 dot_S256x4672_S4672x1858_S256x1858_1_0_0_1_n_n 4672 rfl rfl).symm]
  refine Finset.sum_congr rfl fun k _ => ?_
  have hk := contrEquiv1_symm_val dot_S256x4672_S4672x1858_S256x1858_1_0_0_1_n_n 4672 rfl rfl k
  have el : dot_S256x4672_S4672x1858_S256x1858_1_0_0_1_n_n.lhsIdx j ((contrEquiv1 dot_S256x4672_S4672x1858_S256x1858_1_0_0_1_n_n 4672 rfl rfl).symm k) = ix2 (j 0) k := funext fun a => Fin.ext (by
    match a with
    | ⟨0, _⟩ => exact lhs_row _ _
    | ⟨1, _⟩ => exact (lhs_feat _ _).trans hk)
  have er : dot_S256x4672_S4672x1858_S256x1858_1_0_0_1_n_n.rhsIdx j ((contrEquiv1 dot_S256x4672_S4672x1858_S256x1858_1_0_0_1_n_n 4672 rfl rfl).symm k) = ix2 k (j 1) := funext fun a => Fin.ext (by
    match a with
    | ⟨0, _⟩ => exact (rhs_feat _ _).trans hk
    | ⟨1, _⟩ => exact rhs_col _ _)
  rw [el, er, shapeCast_self, shapeCast_self]
  rfl

end Cert.PolicyHead.Tile

end
-- ==== Proof.KernelLogits.lean ====
/-
  The kernel computes the logits. The grid has sixteen points; point `t` is handed rows `256 t … 256 t + 255` of the
  flattened features (every feature of each) and the whole selection matrix, and writes back rows `256 t … 256 t + 255`
  of the result (every move). By the tile's arithmetic, entry `(p, q)` of what point `t` writes is the feature sum of
  row `256 t + p` against column `q`, which is entry `(256 t + p, q)` of the logits. The sixteen row bands tile the
  4096 rows (row `r` lies in band `r / 256`), so after the run the result array is the logits, entry by entry. Before
  the grid starts the program has flattened the features and narrowed the matrix's float format, the second of which
  changes nothing on the extended reals.
-/
import proofs.«409187_j49770081026298_3_alg».proof.Proof.Gen.KernelIdeal.Value
import proofs.«409187_j49770081026298_3_alg».proof.Proof.TileProduct
import proofs.«409187_j49770081026298_3_alg».proof.Proof.Selection
import Idealize.ShloMosaic.Lib.Pipeline.Value
import Idealize.ShloMosaic.Lib.StableHlo.Run
import Idealize.ShloMosaic.Lib.Tactic

noncomputable section

namespace Cert.PolicyHead.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the grid is launched on -/

/-- The feature array the grid reads is the argument flattened row-major. -/
theorem feat_eq (c : Dev nD) : (V m c main_v0 : S4096x4672.Idx → EReal)
    = shapeCast S4096x4672 (m ((c : Thread nD τ).loc main_arg0)) shapeCasts_S4096x73x8x8_S4096x4672 := by
  dsimp only [Gen.V, Gen.hostOps0]; after_results; rfl

/-- The matrix the grid reads is the argument itself: narrowing its format is the identity on the extended reals. -/
theorem sel_eq (c : Dev nD) : (V m c main_v1 : S4672x1858.Idx → EReal) = m ((c : Thread nD τ).loc main_arg1) := by
  dsimp only [Gen.V, Gen.hostOps0]; after_results; rfl

/-! ## Which rows a point sees -/

/-- Over the sixteen points: the feature tile moves with the output band, neither has a second block coordinate, and
    the matrix is always its one whole block. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every one of the sixteen row bands is some point's. -/
theorem idx_onto : ∀ q : Fin 16, ∃ t : Fin cfg0.N, win0_2.index t = ![q.val, 0] :=
  (by decide +kernel : ∀ q : Fin 16, ∃ t : Fin grid0.N, win0_2.index t = ![q.val, 0])

/-- Row `p` of point `t`'s feature tile is row `r` of the feature array, when `r` is `p` rows into the point's band. -/
theorem rows_at (c : Dev nD) (t : Fin cfg0.N) (p : Fin 256) (k : Fin 4672) (r : Fin 4096)
    (hr : r.val = win0_2.index t (0 : Fin 2) * 256 + p.val) :
    (iblk m c 0 t : Vec Ideal S256x4672 .f32) (ix2 p k) = (V m c main_v0 : S4096x4672.Idx → EReal) (ix2 r k) := by
  obtain ⟨e0, e1, e2, e3, e4, e5⟩ := idx_facts t
  show (V m c main_v0 : S4096x4672.Idx → EReal) (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 4672 + 1 * k.val = k.val; omega

/-- Every point's matrix block is the whole matrix. -/
theorem mat_at (c : Dev nD) (t : Fin cfg0.N) (k : Fin 4672) (q : Fin 1858) :
    (iblk m c 1 t : Vec Ideal S4672x1858 .bf16) (ix2 k q) = (V m c main_v1 : S4672x1858.Idx → EReal) (ix2 k q) := by
  obtain ⟨e0, e1, e2, e3, e4, e5⟩ := idx_facts t
  show (V m c main_v1 : S4672x1858.Idx → EReal) (((cfg0.win 1).blk t).view.emb (ix2 k q)) = _
  refine congrArg _ (funext fun a => Fin.ext ?_)
  match a with
  | ⟨0, _⟩ => show win0_1.index t (0 : Fin 2) * 4672 + 1 * k.val = k.val; omega
  | ⟨1, _⟩ => show win0_1.index t (1 : Fin 2) * 1858 + 1 * q.val = q.val; omega

/-! ## What a point writes back -/

/-- Point `t` writes back its band of the logits of the feature array and the matrix. -/
theorem flushed_eq (c : Dev nD) (t : Fin cfg0.N) :
    (dats m 0 c).flushed 2 t = ((cfg0.win 2).blk t).view.read (Elt Ideal) (logits (V m c main_v0) (V m c main_v1)) := by
  rw [flushed2]
  unfold out0_2
  rw [View.canon_unit_zero hz]
  simp only [View.ld_unit_zero (S := S256x4672) hz, View.ld_unit_zero (S := S4672x1858) hz]
  funext j
  show k0_pay1 (F := Ideal) (iblk m c 0 t) (iblk m c 1 t) j
    = logits (V m c main_v0) (V m c main_v1) (((cfg0.win 2).blk t).view.emb j)
  refine (Tile.tile_at (iblk m c 0 t) (iblk m c 1 t) j).trans ?_
  rw [logits_apply]
  refine Finset.sum_congr rfl fun k _ => ?_
  rw [rows_at m c t (j 0) k ((((cfg0.win 2).blk t).view.emb j) 0) (by
        show win0_2.index t (0 : Fin 2) * 256 + 1 * (j 0).val = _; omega),
      mat_at m c t k (j 1)]
  refine congrArg _ (congrArg _ (funext fun a => Fin.ext ?_))
  obtain ⟨e0, e1, e2, e3, e4, e5⟩ := idx_facts t
  match a with
  | ⟨0, _⟩ => rfl
  | ⟨1, _⟩ => show (j 1).val = win0_2.index t (1 : Fin 2) * 1858 + 1 * (j 1).val; omega

/-! ## The bands tile the rows -/

/-- An entry is in point `t`'s band iff each coordinate is in the band's range on its axis. -/
theorem mem_blk (t : Fin cfg0.N) (i : S4096x1858.Idx) :
    i ∈ ((cfg0.win 2).blk t).view.set ↔ ∀ a : Fin 2, win0_2.index t a * S256x1858.size a ≤ (i a).val ∧ (i a).val < win0_2.index t a * S256x1858.size a + S256x1858.size a := by
  show i ∈ ((View.whole main_v2).slice (win0_2.rect t)).set ↔ _
  rw [View.set_slice_whole, Rect.mem_set_unit]
  exact Iff.rfl

/-- Row `r` lies in band `r / 256`: every entry of the result is written back by some point. -/
theorem cover (i : S4096x1858.Idx) : ∃ t : Fin cfg0.N, (cfg0.win 2).flush t = true ∧ i ∈ ((cfg0.win 2).blk t).view.set := by
  have hi0 : (i 0).val < 4096 := (i 0).isLt
  have hi1 : (i 1).val < 1858 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1858 ≤ (i 1).val ∧ (i 1).val < win0_2.index t (1 : Fin 2) * 1858 + 1858; omega

/-! ## The result array, and the run -/

/-- After the sixteen points the result array is the logits of what the grid was launched on. -/
theorem final (c : Dev nD) : (dats m 0 c).arrAt 2 cfg0.N = logits (V m c main_v0) (V m c main_v1) :=
  (dats m 0 c).arrAt_eq_of_cover 2 (logits (V m c main_v0) (V m c main_v1)) (fun t _ => flushed_eq m c t) cover

/-- The kernel's run: it terminates with the result at the logits of the flattened argument and the matrix argument,
    both arguments unchanged. -/
theorem run : θ_run defs (onTc (τ := τ) (main (F := Ideal))) ⟨m, fun _ => 0, ρ⟩ fun r => ∀ c : Dev nD,
      r.2.mem ((c : Thread nD τ).loc main_v2)
        = logits (shapeCast S4096x4672 (m ((c : Thread nD τ).loc main_arg0)) shapeCasts_S4096x73x8x8_S4096x4672)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [feat_eq, sel_eq])), (h c).2⟩)
    (run_blocks m ρ)

end Cert.PolicyHead.Kernel

end
-- ==== Proof.lean ====
/- The policy head of a chess network: a batch of 4096 positions, each with 73 x 8 x 8 features, is flattened to 4672
   features a position and multiplied by a fixed 4672 x 1858 selection matrix. The kernel does this sixteen row bands
   at a time, 256 positions a band, narrowing both operands to a shorter float format and accumulating into zero; the
   reference flattens the same way and takes one matrix product. On the extended reals narrowing a format is the
   identity and adding into zero is adding nothing, so both compute, at every position `r` and move `n`, the one sum
   over the features `k` of (feature `k` of position `r`) times (matrix entry `(k, n)`). That sum is
   `Cert.PolicyHead.logits` (Proof/Selection.lean); the reference's product is read as it in Proof/RefLogits.lean, one
   band of the kernel in Proof/TileProduct.lean, and the sixteen bands together in Proof/KernelLogits.lean. No law that
   could fail at an infinite entry is used, so the finiteness of the inputs is never opened. The idealized kernel is the
   kernel's own text read on the extended reals: nothing was rewritten, and that claim is trivial. -/
import proofs.«409187_j49770081026298_3_alg».proof.Defs
import proofs.«409187_j49770081026298_3_alg».proof.Proof.Gen.Kernel
import proofs.«409187_j49770081026298_3_alg».proof.Proof.Gen.Kernel.Skeleton
import proofs.«409187_j49770081026298_3_alg».proof.Proof.Gen.Kernel.Launch
import proofs.«409187_j49770081026298_3_alg».proof.Proof.Gen.Kernel.Points
import proofs.«409187_j49770081026298_3_alg».proof.Proof.Gen.Kernel.Frame
import proofs.«409187_j49770081026298_3_alg».proof.Proof.Gen.KernelIdeal
import proofs.«409187_j49770081026298_3_alg».proof.Proof.Gen.KernelIdeal.Skeleton
import proofs.«409187_j49770081026298_3_alg».proof.Proof.Gen.KernelIdeal.Launch
import proofs.«409187_j49770081026298_3_alg».proof.Proof.Gen.KernelIdeal.Points
import proofs.«409187_j49770081026298_3_alg».proof.Proof.Gen.KernelIdeal.Frame
import proofs.«409187_j49770081026298_3_alg».proof.Proof.Gen.ReferenceIdeal
import proofs.«409187_j49770081026298_3_alg».proof.Proof.Gen.KernelIdeal.Value
import proofs.«409187_j49770081026298_3_alg».proof.Proof.Gen.ReferenceIdeal.Run
import proofs.«409187_j49770081026298_3_alg».proof.Proof.Gen.ReferenceIdeal.Read
import proofs.«409187_j49770081026298_3_alg».proof.Proof.Gen.Pre_finite_inputs
import Idealize.ShloMosaic.Adequacy
import Idealize.ShloMosaic.Init
import proofs.«409187_j49770081026298_3_alg».proof.Proof.RefLogits
import proofs.«409187_j49770081026298_3_alg».proof.Proof.KernelLogits

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference is two whole-array operations: its run, with the result forgotten, is its frame. -/
theorem frame_ref : Cert.frame_ReferenceIdeal := fun m ρ _ =>
  (θ_run Cert.ReferenceIdeal.defs _ _).mono (fun _ h c => (h c).2) (Cert.ReferenceIdeal.Value.run (F := Ideal) m ρ)

/-- From arguments that agree, both programs end with the logits of the flattened positions and the selection matrix:
    the kernel band by band, the reference in one product. -/
theorem algebraic : Cert.algebraic_KernelIdeal_ReferenceIdeal := by
  intro m ρ m' ρ' _ hagree
  refine ⟨_, Cert.PolicyHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.PolicyHead.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_ideal, frame_ref, trivial, algebraic⟩

end Cert.Proof

end
